-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000 : Shape := ⟨1, ![500000]⟩
abbrev S100x125 : Shape := ⟨2, ![100, 125]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S100x125 : S_.BroadcastsInDim S100x125 (![] : Fin 0 → Fin S100x125.rank)
  reducesTo_S100x125_S_d0_1 : S100x125.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg1 : IVec S500000 32) (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S500000 32 := broadcastInDim S500000 ![] bcast_S_S500000 main_c_14
  let main_v40 : IVec S500000 1 := cmpi .sge main_arg1 main_v39
  let main_c_15 : IVec S_ 32 := constantI S_ 32 100#32
  let main_v41 : IVec S500000 32 := broadcastInDim S500000 ![] bcast_S_S500000 main_c_15
  let main_v42 : IVec S500000 1 := cmpi .slt main_arg1 main_v41
  let main_v43 : IVec S500000 1 := andi main_v40 main_v42
  let main_c_16 : IVec S_ 1 := constantI S_ 1 1#1
  let main_v44 : IVec S_ 1 := (fun x v => Host.reduce IntOp.andi x v reducesTo_S500000_S_d0 h_S_) main_v43 main_c_16
  let main_v45 : IVec S_ 1 := andi main_v38 main_v44
  main_v45

def fn_part1 {F : FTy → Type} [FloatOps F] (main_arg1 : IVec S500000 32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg9 main_v33

def fn {F : FTy → Type} [FloatOps F] (main_arg0 : FVec F S500000x3 .f32) (main_arg1 : IVec S500000 32) (main_arg2 : IVec S500000 32) (main_arg3 : FVec F S100x125 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S100x125 .f32 := Host.absf main_arg3
  let main_cst_0 : FVec F S_ .f32 := constant S_ .f32 0x7F800000#32
  let main_v5 : FVec F S100x125 .f32 := broadcastInDim S100x125 ![] bcast_S_S100x125 main_cst_0
  let main_v6 : IVec S100x125 1 := cmpf .olt main_v4 main_v5
  let main_c_1 : IVec S_ 1 := constantI S_ 1 1#1
  let main_v7 : IVec S_ 1 := (fun x v => Host.reduce IntOp.andi x v reducesTo_S100x125_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S500000x3 : Shape := ⟨2, ![500000, 3]⟩
abbrev S500000 : Shape := ⟨1, ![500000]⟩
abbrev S100x125 : Shape := ⟨2, ![100, 125]⟩
abbrev S128x128 : Shape := ⟨2, ![128, 128]⟩
abbrev S128 : Shape := ⟨1, ![128]⟩
abbrev S128x64 : Shape := ⟨2, ![128, 64]⟩
abbrev S64 : Shape := ⟨1, ![64]⟩
abbrev S500000x1 : Shape := ⟨2, ![500000, 1]⟩
abbrev S3x128 : Shape := ⟨2, ![3, 128]⟩
abbrev S125x128 : Shape := ⟨2, ![125, 128]⟩
abbrev S1x128 : Shape := ⟨2, ![1, 128]⟩
abbrev S1x64 : Shape := ⟨2, ![1, 64]⟩
abbrev S500000x64 : Shape := ⟨2, ![500000, 64]⟩
abbrev S5000x3 : Shape := ⟨2, ![5000, 3]⟩
abbrev S5000x1 : Shape := ⟨2, ![5000, 1]⟩
abbrev S5000x64 : Shape := ⟨2, ![5000, 64]⟩
abbrev S1x100 : Shape := ⟨2, ![1, 100]⟩
abbrev S5000x100 : Shape := ⟨2, ![5000, 100]⟩
abbrev S5000x125 : Shape := ⟨2, ![5000, 125]⟩
abbrev S5000x128 : Shape := ⟨2, ![5000, 128]⟩
abbrev S_ : Shape := ⟨0, ![]⟩
abbrev S4096x64 : Shape := ⟨2, ![4096, 64]⟩
abbrev S4096x1 : Shape := ⟨2, ![4096, 1]⟩

abbrev nBuf : Space → Nat
  | .hbm => 32
  | .vmem => 14
  | .smem => 0
  | _ => 0

abbrev bufTy : (tb : Table) → Fin (tcTables nBuf tb) → BufTy
  | .hbm, ⟨0, _⟩ => ⟨S500000x3, .f32⟩
  | .hbm, ⟨1, _⟩ => ⟨S500000, .i32⟩
  | .hbm, ⟨2, _⟩ => ⟨S500000, .i32⟩
  | .hbm, ⟨3, _⟩ => ⟨S100x125, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S500000x1, .i32⟩
  | .hbm, ⟨11, _⟩ => ⟨S3x128, .f32⟩
  | .hbm, ⟨12, _⟩ => ⟨S125x128, .f32⟩
  | .hbm, ⟨13, _⟩ => ⟨S1x128, .f32⟩
  | .hbm, ⟨14, _⟩ => ⟨S1x128, .f32⟩
  | .hbm, ⟨15, _⟩ => ⟨S1x64, .f32⟩
  | .hbm, ⟨16, _⟩ => ⟨S500000x64, .f32⟩
  | .hbm, ⟨17, _⟩ => ⟨S_, .f32⟩
  | .hbm, ⟨18, _⟩ => ⟨S4096x64, .f32⟩
  | .hbm, ⟨19, _⟩ => ⟨S500000x1, .i32⟩
  | .hbm, ⟨20, _⟩ => ⟨S4096x64, .f32⟩
  | .hbm, ⟨21, _⟩ => ⟨S_, .f32⟩
  | .hbm, ⟨22, _⟩ => ⟨S500000x1, .f32⟩
  | .hbm, ⟨23, _⟩ => ⟨S_, .f32⟩
  | .hbm, ⟨24, _⟩ => ⟨S4096x1, .f32⟩
  | .hbm, ⟨25, _⟩ => ⟨S500000x1, .i32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x64, .f32⟩
  | .hbm, ⟨31, _⟩ => ⟨S4096x64, .f32⟩
  | .local _ .vmem, ⟨0, _⟩ => ⟨S5000x3, .f32⟩
  | .local _ .vmem, ⟨1, _⟩ => ⟨S5000x3, .f32⟩
  | .local _ .vmem, ⟨2, _⟩ => ⟨S5000x1, .i32⟩
  | .local _ .vmem, ⟨3, _⟩ => ⟨S5000x1, .i32⟩
  | .local _ .vmem, ⟨4, _⟩ => ⟨S100x125, .f32⟩
  | .local _ .vmem, ⟨5, _⟩ => ⟨S3x128, .f32⟩
  | .local _ .vmem, ⟨6, _⟩ => ⟨S125x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x125 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S125x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S500000_S500000x1 : S500000.ShapeCasts S500000x1
  slices_S128x128_S3x128_0_0 : S128x128.Slices ![0, 0] S3x128
  slices_S128x128_S125x128_3_0 : S128x128.Slices ![3, 0] S125x128
  shapeCasts_S128_S1x128 : S128.ShapeCasts S1x128
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x100_d1_w32 : S1x100.Iotas .tc 32 [1]
  broadcasts_S5000x1_S5000x100 : S5000x1.Broadcasts S5000x100
  broadcasts_S1x100_S5000x100 : S1x100.Broadcasts S5000x100
  natLt_1_32 : 1 < 32
  inb_S100x125_S100x125_0_0 : ∀ a, (![0, 0] : Fin 2 → Nat) a + S100x125.size a ≤ S100x125.size a
  h_S100x125 : 0 < S100x125.numel
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S125x128_S125x128_0_0 : ∀ a, (![0, 0] : Fin 2 → Nat) a + S125x128.size a ≤ S125x128.size a
  h_S125x128 : 0 < S125x128.numel
  shapeCasts_S125x128_S125x128 : S125x128.ShapeCasts S125x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S4096x64 : S_.BroadcastsInDim S4096x64 (![] : Fin 0 → Fin S4096x64.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  dot_S5000x100_S100x125_S5000x125_1_0_0_1_n_n_wf : DotDims.WF S5000x100 S100x125 S5000x125 [1] [0] [0] [1] [] []
  dot_S5000x3_S3x128_S5000x128_1_0_0_1_n_n_wf : DotDims.WF S5000x3 S3x128 S5000x128 [1] [0] [0] [1] [] []
  dot_S5000x125_S125x128_S5000x128_1_0_0_1_n_n_wf : DotDims.WF S5000x125 S125x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S4096x64_S500000x1_S500000x64_1_0_0_1_wf : ScatterDims.WF S4096x64 S500000x1 S500000x64 [1] [0] [0] 1
  scatter_S4096x1_S500000x1_S500000x1_1_0_0_1_wf : ScatterDims.WF S4096x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .f32 = 32 ∨ (Rect.block (s := S500000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .i32 = 32 ∨ (Rect.block (s := S500000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x125.size a ≤ S100x125.size a
  hwx0_2 : ∀ i : grid0.Coords, EltTy.bits .f32 = 32 ∨ (Rect.block (s := S100x125) S100x125.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S125x128.size a ≤ S125x128.size a
  hwx0_4 : ∀ i : grid0.Coords, EltTy.bits .f32 = 32 ∨ (Rect.block (s := S125x128) S125x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S500000x64.size a
  hwx0_10 : ∀ i : grid0.Coords, EltTy.bits .f32 = 32 ∨ (Rect.block (s := S500000x64) S5000x64.size (cc0_transform_10 i) (hinb0_10 i)).WholeWords (EltTy.packing .f32)

variable [Facts₀]

def dot_S5000x100_S100x125_S5000x125_1_0_0_1_n_n : DotDims S5000x100 S100x125 S5000x125 where
  lhsContracting := [1]
  rhsContracting := [0]
  lhsNonContracting := [0]
  rhsNonContracting := [1]
  lhsBatch := []
  rhsBatch := []
  wf := dot_S5000x100_S100x125_S5000x125_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x125_S125x128_S5000x128_1_0_0_1_n_n : DotDims S5000x125 S125x128 S5000x128 where
  lhsContracting := [1]
  rhsContracting := [0]
  lhsNonContracting := [0]
  rhsNonContracting := [1]
  lhsBatch := []
  rhsBatch := []
  wf := dot_S5000x125_S125x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S4096x64_S500000x1_S500000x64_1_0_0_1 : ScatterDims S4096x64 S500000x1 S500000x64 where
  updateWindowDims := [1]
  insertedWindowDims := [0]
  scatterDimsToOperandDims := [0]
  indexVectorDim := 1
  wf := scatter_S4096x64_S500000x1_S500000x64_1_0_0_1_wf
def scatter_S4096x1_S500000x1_S500000x1_1_0_0_1 : ScatterDims S4096x1 S500000x1 S500000x1 where
  updateWindowDims := [1]
  insertedWindowDims := [0]
  scatterDimsToOperandDims := [0]
  indexVectorDim := 1
  wf := scatter_S4096x1_S500000x1_S500000x1_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S100x125.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S125x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S500000x3 : Shape := ⟨2, ![500000, 3]⟩
abbrev S500000 : Shape := ⟨1, ![500000]⟩
abbrev S100x125 : Shape := ⟨2, ![100, 125]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S500000x1 : Shape := ⟨2, ![500000, 1]⟩
abbrev S500000x125 : Shape := ⟨2, ![500000, 125]⟩
abbrev S500000x128 : Shape := ⟨2, ![500000, 128]⟩
abbrev S1x128 : Shape := ⟨2, ![1, 128]⟩
abbrev S500000x64 : Shape := ⟨2, ![500000, 64]⟩
abbrev S1x64 : Shape := ⟨2, ![1, 64]⟩
abbrev S4096x64 : Shape := ⟨2, ![4096, 64]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000, .i32⟩
  | .hbm, ⟨2, _⟩ => ⟨S500000, .i32⟩
  | .hbm, ⟨3, _⟩ => ⟨S100x125, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x125, .f32⟩
  | .hbm, ⟨19, _⟩ => ⟨S500000x128, .f32⟩
  | .hbm, ⟨20, _⟩ => ⟨S500000x128, .f32⟩
  | .hbm, ⟨21, _⟩ => ⟨S1x128, .f32⟩
  | .hbm, ⟨22, _⟩ => ⟨S500000x128, .f32⟩
  | .hbm, ⟨23, _⟩ => ⟨S500000x128, .f32⟩
  | .hbm, ⟨24, _⟩ => ⟨S_, .f32⟩
  | .hbm, ⟨25, _⟩ => ⟨S500000x128, .f32⟩
  | .hbm, ⟨26, _⟩ => ⟨S500000x128, .f32⟩
  | .hbm, ⟨27, _⟩ => ⟨S500000x128, .f32⟩
  | .hbm, ⟨28, _⟩ => ⟨S1x128, .f32⟩
  | .hbm, ⟨29, _⟩ => ⟨S500000x128, .f32⟩
  | .hbm, ⟨30, _⟩ => ⟨S500000x128, .f32⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S500000x64, .f32⟩
  | .hbm, ⟨35, _⟩ => ⟨S1x64, .f32⟩
  | .hbm, ⟨36, _⟩ => ⟨S500000x64, .f32⟩
  | .hbm, ⟨37, _⟩ => ⟨S500000x64, .f32⟩
  | .hbm, ⟨38, _⟩ => ⟨S_, .f32⟩
  | .hbm, ⟨39, _⟩ => ⟨S4096x64, .f32⟩
  | .hbm, ⟨40, _⟩ => ⟨S500000x1, .i32⟩
  | .hbm, ⟨41, _⟩ => ⟨S4096x64, .f32⟩
  | .hbm, ⟨42, _⟩ => ⟨S_, .f32⟩
  | .hbm, ⟨43, _⟩ => ⟨S500000x1, .f32⟩
  | .hbm, ⟨44, _⟩ => ⟨S_, .f32⟩
  | .hbm, ⟨45, _⟩ => ⟨S4096x1, .f32⟩
  | .hbm, ⟨46, _⟩ => ⟨S500000x1, .i32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x64, .f32⟩
  | .hbm, ⟨52, _⟩ => ⟨S4096x64, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x3_S500000x125_S500000x128_d1 : Shape.Concatenates [S500000x3, S500000x125] S500000x128 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S4096x64 : S_.BroadcastsInDim S4096x64 (![] : Fin 0 → Fin S4096x64.rank)
  bcast_S_S500000x1 : S_.BroadcastsInDim S500000x1 (![] : Fin 0 → Fin S500000x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  gather_S100x125_S500000x1_S500000x125_1_0_n_n_0_1_1125_wf : GatherDims.WF S100x125 S500000x1 S500000x125 [1] [0] [] [0] [] 1 ![1, 125]
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []
  scatter_S4096x64_S500000x1_S500000x64_1_0_0_1_wf : ScatterDims.WF S4096x64 S500000x1 S500000x64 [1] [0] [0] 1
  scatter_S4096x1_S500000x1_S500000x1_1_0_0_1_wf : ScatterDims.WF S4096x1 S500000x1 S500000x1 [1] [0] [0] 1

variable [Facts₀]

def gather_S100x125_S500000x1_S500000x125_1_0_n_n_0_1_1125 : GatherDims S100x125 S500000x1 S500000x125 where
  offsetDims := [1]
  collapsedSliceDims := [0]
  operandBatchingDims := []
  startIndicesBatchingDims := []
  startIndexMap := [0]
  indexVectorDim := 1
  sliceSizes := ![1, 125]
  wf := gather_S100x125_S500000x1_S500000x125_1_0_n_n_0_1_1125_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def scatter_S4096x64_S500000x1_S500000x64_1_0_0_1 : ScatterDims S4096x64 S500000x1 S500000x64 where
  updateWindowDims := [1]
  insertedWindowDims := [0]
  scatterDimsToOperandDims := [0]
  indexVectorDim := 1
  wf := scatter_S4096x64_S500000x1_S500000x64_1_0_0_1_wf
def scatter_S4096x1_S500000x1_S500000x1_1_0_0_1 : ScatterDims S4096x1 S500000x1 S500000x1 where
  updateWindowDims := [1]
  insertedWindowDims := [0]
  scatterDimsToOperandDims := [0]
  indexVectorDim := 1
  wf := scatter_S4096x1_S500000x1_S500000x1_1_0_0_1_wf

class Facts : Prop extends Facts₀ where

variable [Facts]
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«430825_j51307679318539_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Mlp.lean ====
/-
  A three-layer perceptron on node features, row by row, over the extended reals.

  Node n's feature row is its three coordinates followed by row r(n) of a 100-row table (cat, rows). The first
  layer multiplies by a 128 x 128 matrix W; everything after that first product (head: bias, positive part,
  product, bias, positive part, product, bias) is row-local, so row p of head Z depends on row p of Z only.

  Two facts about the first product are proved here.
  * Splitting the contraction (mm_cat): the product of the concatenated features with W is the product of the
    coordinates with W's first three rows plus the product of the table rows with W's remaining 125 rows. This
    regroups one finite sum into two and uses commutativity and associativity of addition only, so it holds
    at the infinities too.
  * A lookup as a product (mm_onehot): multiplying the indicator matrix of "word p equals v" by the table gives,
    in row p, the table's row named by word p, when that word is below 100: every other term of the sum carries
    the factor 0.
-/
import proofs.«430825_j51307679318539_1_alg».proof.Proof.LibDenseRows
import proofs.«430825_j51307679318539_1_alg».proof.Proof.LibTileSums

noncomputable section

open scoped BigOperators

namespace Cert.Mlp

open Idealize.ShloMosaic Idealize.ShloMosaic.ValueIdx DenseRows

/-! ## After the first product -/

/-- Bias, positive part, product, bias, positive part, product, bias. -/
def head {n : Nat} (Z : Mat n 128) (b1 : Mat 1 128) (W2 : Mat 128 128) (b2 : Mat 1 128) (W3 : Mat 128 64)
    (b3 : Mat 1 64) : Mat n 64 :=
  addRow (mm (relu (addRow (mm (relu (addRow Z b1)) W2) b2)) W3) b3

/-- Row p of Z being row P of A, row p of head Z is row P of head A. -/
theorem head_rows {n M : Nat} (Z : Mat n 128) (A : Mat M 128) (b1 : Mat 1 128) (W2 : Mat 128 128) (b2 : Mat 1 128)
    (W3 : Mat 128 64) (b3 : Mat 1 64) (p : Fin n) (P : Fin M) (h : ∀ c, Z (ix2 p c) = A (ix2 P c)) (q : Fin 64) :
    head Z b1 W2 b2 W3 b3 (ix2 p q) = head A b1 W2 b2 W3 b3 (ix2 P q) := by
  unfold head
  refine addRow_rows _ _ _ p P (fun c => ?_) q
  refine mm_rows _ _ _ p P (fun c => ?_) c
  refine relu_rows _ _ p P (fun c => ?_) c
  refine addRow_rows _ _ _ p P (fun c => ?_) c
  refine mm_rows _ _ _ p P (fun c => ?_) c
  refine relu_rows _ _ p P (fun c => ?_) c
  exact addRow_rows _ _ _ p P h c

/-! ## The node features -/

/-- Three columns followed by 125 columns. -/
def cat {n : Nat} (pos : Mat n 3) (g : Mat n 125) : Mat n 128 :=
  fun i => if h : (i 1).val < 3 then pos (ix2 (i 0) ⟨(i 1).val, h⟩)
    else g (ix2 (i 0) ⟨(i 1).val - 3, by have := idx2_lt1 i; omega⟩)

/-- Row a of the result is row r a of the table. -/
def rows {n : Nat} (emb : Mat 100 125) (r : Fin n → Fin 100) : Mat n 125 := fun i => emb (ix2 (r (i 0)) (i 1))

theorem cat_left {n : Nat} (pos : Mat n 3) (g : Mat n 125) (a : Fin n) (k : Fin 3) :
    cat pos g (ix2 a (Fin.castAdd 125 k)) = pos (ix2 a k) := by
  have hk : (Fin.castAdd 125 k).val < 3 := k.isLt
  show (if h : (Fin.castAdd 125 k).val < 3 then pos (ix2 a ⟨(Fin.castAdd 125 k).val, h⟩) else _) = _
  rw [dif_pos hk]
  rfl

theorem cat_right {n : Nat} (pos : Mat n 3) (g : Mat n 125) (a : Fin n) (f : Fin 125) :
    cat pos g (ix2 a (Fin.natAdd 3 f)) = g (ix2 a f) := by
  have hf : ¬ (Fin.natAdd 3 f).val < 3 := by simp [Fin.natAdd]
  show (if h : (Fin.natAdd 3 f).val < 3 then _ else g (ix2 a ⟨(Fin.natAdd 3 f).val - 3, _⟩)) = _
  rw [dif_neg hf]
  congr 2
  apply Fin.ext
  simp [Fin.natAdd]

/-! ## The first product -/

/-- The contraction over 128 = 3 + 125 positions, regrouped. -/
theorem mm_cat {n : Nat} (pos : Mat n 3) (g : Mat n 125) (W : Mat 128 128) (Wp : Mat 3 128) (Wf : Mat 125 128)
    (hp : ∀ (k : Fin 3) (h : Fin 128), Wp (ix2 k h) = W (ix2 (Fin.castAdd 125 k) h))
    (hf : ∀ (f : Fin 125) (h : Fin 128), Wf (ix2 f h) = W (ix2 (Fin.natAdd 3 f) h))
    (a : Fin n) (b : Fin 128) :
    mm (cat pos g) W (ix2 a b) = mm pos Wp (ix2 a b) + mm g Wf (ix2 a b) := by
  rw [mm_apply, mm_apply, mm_apply]
  rw [show (∑ c : Fin 128, cat pos g (ix2 a c) * W (ix2 c b))
      = ∑ c : Fin (3 + 125), cat pos g (ix2 a c) * W (ix2 c b) from rfl, Fin.sum_univ_add]
  congr 1
  · exact Finset.sum_congr rfl fun k _ => by rw [hp, cat_left]
  · exact Finset.sum_congr rfl fun f _ => by rw [hf, cat_right]

/-- The indicator of "word a equals v", as a matrix of ones and zeros. -/
def onehot {n : Nat} (z : Fin n → BitVec 32) : Mat n 100 :=
  fun i => if z (i 0) = BitVec.ofNat 32 (i 1).val then (1 : EReal) else 0

/-- The table row a word names, the last row standing in for a word of 100 or more. -/
def rowOf (w : BitVec 32) : Fin 100 := ⟨min w.toNat 99, by omega⟩

/-- The indicator matrix times the table looks the named rows up. -/
theorem mm_onehot {n : Nat} (z : Fin n → BitVec 32) (emb : Mat 100 125) (a : Fin n) (hz : (z a).toNat < 100)
    (f : Fin 125) : mm (onehot z) emb (ix2 a f) = rows emb (fun a => rowOf (z a)) (ix2 a f) := by
  rw [mm_apply]
  show ∑ v : Fin 100, (if z a = BitVec.ofNat 32 v.val then (1 : EReal) else 0) * emb (ix2 v f) = emb (ix2 (rowOf (z a)) f)
  rw [Cert.LibTileSums.onehot_sum (by norm_num) (z a) (fun v => emb (ix2 v f)), dif_pos hz]
  congr 2
  apply Fin.ext
  show (z a).toNat = min (z a).toNat 99
  omega

/-! ## The first product, spelled with the lookup as a product -/

/-- Coordinates times the first three weight rows, plus (indicator times table) times the remaining 125 rows. -/
def firstProduct {n : Nat} (pos : Mat n 3) (z : Fin n → BitVec 32) (emb : Mat 100 125) (wp : Mat 3 128)
    (wf : Mat 125 128) : Mat n 128 :=
  fun i => mm pos wp i + mm (mm (onehot z) emb) wf i

/-- Row p of it depends on row p of the coordinates and on word p only. -/
theorem firstProduct_rows {n M : Nat} (x : Mat n 3) (X : Mat M 3) (z : Fin n → BitVec 32) (Z : Fin M → BitVec 32)
    (emb : Mat 100 125) (wp : Mat 3 128) (wf : Mat 125 128) (p : Fin n) (P : Fin M)
    (hx : ∀ k, x (ix2 p k) = X (ix2 P k)) (hz : z p = Z P) (c : Fin 128) :
    firstProduct x z emb wp wf (ix2 p c) = firstProduct X Z emb wp wf (ix2 P c) := by
  show mm x wp (ix2 p c) + mm (mm (onehot z) emb) wf (ix2 p c) = mm X wp (ix2 P c) + mm (mm (onehot Z) emb) wf (ix2 P c)
  rw [mm_rows x X wp p P hx c]
  congr 1
  refine mm_rows _ _ wf p P (fun f => ?_) c
  refine mm_rows _ _ emb p P (fun v => ?_) f
  show (if z p = BitVec.ofNat 32 v.val then (1 : EReal) else 0) = if Z P = BitVec.ofNat 32 v.val then (1 : EReal) else 0
  rw [hz]

/-- With every word below 100 it is the product of the concatenated features with the whole weight matrix. -/
theorem firstProduct_eq {n : Nat} (pos : Mat n 3) (z : Fin n → BitVec 32) (emb : Mat 100 125) (W : Mat 128 128)
    (wp : Mat 3 128) (wf : Mat 125 128)
    (hp : ∀ (k : Fin 3) (h : Fin 128), wp (ix2 k h) = W (ix2 (Fin.castAdd 125 k) h))
    (hf : ∀ (f : Fin 125) (h : Fin 128), wf (ix2 f h) = W (ix2 (Fin.natAdd 3 f) h))
    (hz : ∀ a, (z a).toNat < 100) :
    firstProduct pos z emb wp wf = mm (cat pos (rows emb (fun a => rowOf (z a)))) W := by
  funext i
  obtain ⟨a, b, rfl⟩ : ∃ (a : Fin n) (b : Fin 128), i = ix2 a b := ⟨i 0, i 1, eq_ix2 i⟩
  rw [mm_cat pos _ W wp wf hp hf a b]
  show mm pos wp (ix2 a b) + mm (mm (onehot z) emb) wf (ix2 a b) = _
  congr 1
  exact mm_rows _ _ wf a a (fun f => mm_onehot z emb a (hz a) f) b

/-! ## The network -/

/-- The network's output for every node: the head of the first product of the node features. -/
def net {n : Nat} (pos : Mat n 3) (r : Fin n → Fin 100) (emb : Mat 100 125) (W1 : Mat 128 128) (b1 : Mat 1 128)
    (W2 : Mat 128 128) (b2 : Mat 1 128) (W3 : Mat 128 64) (b3 : Mat 1 64) : Mat n 64 :=
  head (mm (cat pos (rows emb r)) W1) b1 W2 b2 W3 b3

end Cert.Mlp

end
-- ==== Proof.KernelBlock.lean ====
/-
  What one grid point's body stores, as a function of the point's input blocks.

  The body multiplies on the matrix unit into zero accumulators, broadcasts each one-row bias down the rows, takes
  positive parts against a zero splat, and changes float format before every product; over the extended reals a
  change of format is the identity, a product into a zero accumulator is the matrix product, and a maximum with zero
  is the positive part. The table lookup is spelled as a product: the indicator of "the node's word equals the
  lane number" times the table. So the stored block is the network's head applied to
  (coordinates x first three weight rows) + ((indicator x table) x remaining weight rows).
-/
import proofs.«430825_j51307679318539_1_alg».proof.Proof.Gen.KernelIdeal.Frame
import proofs.«430825_j51307679318539_1_alg».proof.Proof.LibDenseForms
import proofs.«430825_j51307679318539_1_alg».proof.Proof.Mlp
import Idealize.ShloMosaic.Lib.StableHlo.Predicate

noncomputable section

open scoped BigOperators

namespace Cert.KernelIdeal.BlockValue

open Idealize.ShloMosaic Idealize.ShloMosaic.ValueIdx DenseRows Cert.Mlp Cert.KernelIdeal Cert.KernelIdeal.Gen

/-- A product accumulated into the zero splat is the matrix product, whatever formats the operands carry. -/
theorem matmul_zero_mm {m k n : Nat} {φ₁ φ₂ : FTy} (prec : Option ContractPrecision)
    (A : FVec Ideal (⟨2, ![m, k]⟩ : Shape) φ₁) (B : FVec Ideal (⟨2, ![k, n]⟩ : Shape) φ₂) :
    matmul (DotDims.plain m k n) prec A B (constant (⟨2, ![m, n]⟩ : Shape) .f32 0x00000000#32)
      = mm (A : Mat m k) (B : Mat k n) := by
  refine (matmul_zero_eq_dotGeneral _ prec A B).trans ?_
  funext i
  obtain ⟨a, b, rfl⟩ : ∃ (a : Fin m) (b : Fin n), i = ix2 a b := ⟨i 0, i 1, eq_ix2 i⟩
  exact StackMember.dotGeneral_plain_apply prec A B a b

/-- The indicator of two equal words, widened and converted, is 1 or 0. -/
theorem indicator_word (a b : BitVec 32) :
    Scalar.sitofp (F := Ideal) .f32 ((IntOp.cmpi .eq a b).setWidth 32) = if a = b then (1 : EReal) else 0 := by
  by_cases h : a = b
  · rw [if_pos h, StableHlo.Predicate.cmpi_eq_iff.2 h, Ideal.scalar_sitofp_def,
      show ((1#1 : BitVec 1).setWidth 32).toInt = 1 by decide]
    norm_num
  · have h0 : IntOp.cmpi .eq a b = 0#1 := by
      unfold IntOp.cmpi
      rw [show (a == b) = false from beq_eq_false_iff_ne.mpr h]
      rfl
    rw [if_neg h, h0, Ideal.scalar_sitofp_def, show ((0#1 : BitVec 1).setWidth 32).toInt = 0 by decide]
    norm_num

/-- The compare of the node words, broadcast across 100 lanes, with the lane numbers, widened and converted, is the
    indicator matrix of the words. -/
theorem onehot_form (z : IVec S5000x1 32) :
    (sitofp .f32 (extui 32 (cmpi .eq (broadcastTo S5000x100 (shapeCast S5000x1 z shapeCasts_S5000x1_S5000x1) broadcasts_S5000x1_S5000x100)
      (broadcastTo S5000x100 (iota .tc S1x100 32 [1] iota_S1x100_d1_w32) broadcasts_S1x100_S5000x100)) natLt_1_32) : FVec Ideal S5000x100 .f32)
      = onehot (fun a => z (ix2 a (0 : Fin 1))) := by
  funext i
  obtain ⟨a, v, rfl⟩ : ∃ (a : Fin 5000) (v : Fin 100), i = ix2 a v := ⟨i 0, i 1, eq_ix2 i⟩
  rw [shapeCast_self]
  have hz : broadcastTo S5000x100 z broadcasts_S5000x1_S5000x100 (ix2 a v) = z (ix2 a (0 : Fin 1)) :=
    broadcastTo_apply z _ (ix2 a v) (ix2 a (0 : Fin 1)) (fun ax => by
      match ax with
      | ⟨0, _⟩ => rfl
      | ⟨1, _⟩ => rfl)
  have hi : broadcastTo S5000x100 (iota .tc S1x100 32 [1] iota_S1x100_d1_w32) broadcasts_S1x100_S5000x100 (ix2 a v)
      = BitVec.ofNat 32 v.val := by
    rw [broadcastTo_1b_ab_apply, iota_single_apply]
  show Scalar.sitofp (F := Ideal) .f32 ((IntOp.cmpi .eq (broadcastTo S5000x100 z broadcasts_S5000x1_S5000x100 (ix2 a v))
      (broadcastTo S5000x100 (iota .tc S1x100 32 [1] iota_S1x100_d1_w32) broadcasts_S1x100_S5000x100 (ix2 a v))).setWidth 32) = _
  rw [hz, hi, indicator_word]
  rfl

/-! ## The printed contraction records are the plain ones -/

theorem dot_pos : dot_S5000x3_S3x128_S5000x128_1_0_0_1_n_n = DotDims.plain 5000 3 128 := rfl
theorem dot_tab : dot_S5000x100_S100x125_S5000x125_1_0_0_1_n_n = DotDims.plain 5000 100 125 := rfl
theorem dot_feat : dot_S5000x125_S125x128_S5000x128_1_0_0_1_n_n = DotDims.plain 5000 125 128 := rfl
theorem dot_hid : dot_S5000x128_S128x128_S5000x128_1_0_0_1_n_n = DotDims.plain 5000 128 128 := rfl
theorem dot_out : dot_S5000x128_S128x64_S5000x64_1_0_0_1_n_n = DotDims.plain 5000 128 64 := rfl

/-! ## The body's values -/

/-- The second layer's value before its positive part. -/
theorem pay2_eq (z : IVec S5000x1 32) (emb : Mat 100 125) (pos : Mat 5000 3) (wp : Mat 3 128) (wf : Mat 125 128)
    (b1 : Mat 1 128) (W2 : Mat 128 128) (b2 : Mat 1 128) :
    k0_pay2 (F := Ideal) z emb pos wp wf b1 W2 b2
      = addRow (mm (relu (addRow (firstProduct pos (fun a => z (ix2 a (0 : Fin 1))) emb wp wf) b1)) W2) b2 := by
  unfold k0_pay2
  dsimp only
  rw [onehot_form, dot_pos, dot_tab, dot_feat, dot_hid, matmul_zero_mm, matmul_zero_mm, matmul_zero_mm, matmul_zero_mm,
    shapeCast_self, shapeCast_self, shapeCast_self, shapeCast_self,
    bias_vector_form, relu_vector_form, bias_vector_form]
  rfl

/-- The stored value from the second layer's. -/
theorem pay1_eq (h2 : Mat 5000 128) (W3 : Mat 128 64) (b3 : Mat 1 64) :
    k0_pay1 (F := Ideal) h2 (k0_pay3 (F := Ideal)) W3 b3 = addRow (mm (relu h2) W3) b3 := by
  unfold k0_pay1 k0_pay3
  dsimp only
  rw [dot_out, relu_vector_form, matmul_zero_mm, shapeCast_self, bias_vector_form]
  rfl

/-- The block the body stores is the network's head of the first product. -/
theorem stored_eq (z : IVec S5000x1 32) (emb : Mat 100 125) (pos : Mat 5000 3) (wp : Mat 3 128) (wf : Mat 125 128)
    (b1 : Mat 1 128) (W2 : Mat 128 128) (b2 : Mat 1 128) (W3 : Mat 128 64) (b3 : Mat 1 64) :
    k0_pay1 (F := Ideal) (k0_pay2 (F := Ideal) z emb pos wp wf b1 W2 b2) (k0_pay3 (F := Ideal)) W3 b3
      = head (firstProduct pos (fun a => z (ix2 a (0 : Fin 1))) emb wp wf) b1 W2 b2 W3 b3 := by
  rw [pay2_eq, pay1_eq]
  rfl

end Cert.KernelIdeal.BlockValue

end
-- ==== Proof.KernelArray.lean ====
/-
  From the blocks the grid points write back to the whole node-output array.

  The grid has 100 points; point t reads rows 5000 t .. 5000 t + 4999 of the coordinates and of the word column,
  and the whole of every other operand, and writes back rows 5000 t .. 5000 t + 4999 of the output. Because the
  network is row-local, the block point t writes is that band of rows of the network applied to the whole arrays;
  the 100 bands tile the 500000 rows, so after the region the output array is the network of the whole arrays.
-/
import proofs.«430825_j51307679318539_1_alg».proof.Proof.KernelBlock

set_option maxRecDepth 16384

noncomputable section

open scoped BigOperators

namespace Cert.KernelIdeal.ArrayValue

open Idealize.ShloMosaic Idealize.ShloMosaic.ValueIdx DenseRows Cert.Mlp Cert.KernelIdeal Cert.KernelIdeal.Gen
open Cert.KernelIdeal.BlockValue
open Idealize.ShloMosaic.Pipeline (Dat Cfg Window)

variable (m : (ℓ : Loc nD τ sig) → Buf (Elt Ideal) ℓ)

/-! ## The arrays as the region finds them, and a point's blocks, at their literal types -/

abbrev posA (c : Dev nD) : Mat 500000 3 := V m c main_arg0
abbrev zA (c : Dev nD) : IVec S500000x1 32 := V m c main_v0
abbrev embA (c : Dev nD) : Mat 100 125 := V m c main_arg3
abbrev wpA (c : Dev nD) : Mat 3 128 := V m c main_v1
abbrev wfA (c : Dev nD) : Mat 125 128 := V m c main_v2
abbrev b1A (c : Dev nD) : Mat 1 128 := V m c main_v3
abbrev w2A (c : Dev nD) : Mat 128 128 := V m c main_arg6
abbrev b2A (c : Dev nD) : Mat 1 128 := V m c main_v4
abbrev w3A (c : Dev nD) : Mat 128 64 := V m c main_arg8
abbrev b3A (c : Dev nD) : Mat 1 64 := V m c main_v5

abbrev posB (c : Dev nD) (t : Fin cfg0.N) : Mat 5000 3 := iblk m c 0 t
abbrev zB (c : Dev nD) (t : Fin cfg0.N) : IVec S5000x1 32 := iblk m c 1 t
abbrev embB (c : Dev nD) (t : Fin cfg0.N) : Mat 100 125 := iblk m c 2 t
abbrev wpB (c : Dev nD) (t : Fin cfg0.N) : Mat 3 128 := iblk m c 3 t
abbrev wfB (c : Dev nD) (t : Fin cfg0.N) : Mat 125 128 := iblk m c 4 t
abbrev b1B (c : Dev nD) (t : Fin cfg0.N) : Mat 1 128 := iblk m c 5 t
abbrev w2B (c : Dev nD) (t : Fin cfg0.N) : Mat 128 128 := iblk m c 6 t
abbrev b2B (c : Dev nD) (t : Fin cfg0.N) : Mat 1 128 := iblk m c 7 t
abbrev w3B (c : Dev nD) (t : Fin cfg0.N) : Mat 128 64 := iblk m c 8 t
abbrev b3B (c : Dev nD) (t : Fin cfg0.N) : Mat 1 64 := iblk m c 9 t

/-- The node-output array after the region: the network's head of the first product of the whole arrays. -/
def nodeOut (c : Dev nD) : Mat 500000 64 :=
  head (firstProduct (posA m c) (fun a => zA m c (ix2 a (0 : Fin 1))) (embA m c) (wpA m c) (wfA m c))
    (b1A m c) (w2A m c) (b2A m c) (w3A m c) (b3A m c)

/-! ## The index maps over the grid -/

theorem hz : (![0, 0] : Fin 2 → Nat) = fun _ => 0 := funext fun a => by fin_cases a <;> rfl

/-- Point t's block index is (t, 0) for the three row-banded windows and (0, 0) for the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-! ## The body's result over a point's blocks -/

/-- The one store's canonical contents are the network's head of the first product of the blocks. -/
theorem out_block (x0 : Mat 5000 3) (x1 : IVec S5000x1 32) (x2 : Mat 100 125) (x3 : Mat 3 128) (x4 : Mat 125 128)
    (x5 : Mat 1 128) (x6 : Mat 128 128) (x7 : Mat 1 128) (x8 : Mat 128 64) (x9 : Mat 1 64) :
    out0_10 (F := Ideal) x0 x1 x2 x3 x4 x5 x6 x7 x8 x9
      = head (firstProduct x0 (fun a => x1 (ix2 a (0 : Fin 1))) x2 x3 x4) x5 x6 x7 x8 x9 := by
  unfold out0_10
  rw [View.canon_unit_zero hz]
  simp only [View.ld_unit_zero (S := S5000x1) hz, View.ld_unit_zero (S := S100x125) hz, View.ld_unit_zero (S := S5000x3) hz,
    View.ld_unit_zero (S := S3x128) hz, View.ld_unit_zero (S := S125x128) hz, View.ld_unit_zero (S := S1x128) hz,
    View.ld_unit_zero (S := S128x128) hz, View.ld_unit_zero (S := S128x64) hz, View.ld_unit_zero (S := S1x64) hz]
  exact stored_eq x1 x2 x0 x3 x4 x5 x6 x7 x8 x9

/-! ## A point's blocks read off the arrays -/

/-- A whole-array window's block is the array. -/
theorem embB_eq (c : Dev nD) (t : Fin cfg0.N) : embB m c t = embA m c := by
  obtain ⟨-, -, -, -, -, -, e, -⟩ := idx_facts t
  funext y
  show V m c main_arg3 (((cfg0.win 2).blk t).view.emb y) = V m c main_arg3 y
  refine congrArg _ (funext fun a => Fin.ext ?_)
  match a with
  | ⟨0, _⟩ => show win0_2.index t (0 : Fin 2) * 100 + 1 * (y 0).val = (y 0).val; rw [e 0]; omega
  | ⟨1, _⟩ => show win0_2.index t (1 : Fin 2) * 125 + 1 * (y 1).val = (y 1).val; rw [e 1]; omega
theorem wpB_eq (c : Dev nD) (t : Fin cfg0.N) : wpB m c t = wpA m c := by
  obtain ⟨-, -, -, -, -, -, -, e, -⟩ := idx_facts t
  funext y
  show V m c main_v1 (((cfg0.win 3).blk t).view.emb y) = V m c main_v1 y
  refine congrArg _ (funext fun a => Fin.ext ?_)
  match a with
  | ⟨0, _⟩ => show win0_3.index t (0 : Fin 2) * 3 + 1 * (y 0).val = (y 0).val; rw [e 0]; omega
  | ⟨1, _⟩ => show win0_3.index t (1 : Fin 2) * 128 + 1 * (y 1).val = (y 1).val; rw [e 1]; omega
theorem wfB_eq (c : Dev nD) (t : Fin cfg0.N) : wfB m c t = wfA m c := by
  obtain ⟨-, -, -, -, -, -, -, -, e, -⟩ := idx_facts t
  funext y
  show V m c main_v2 (((cfg0.win 4).blk t).view.emb y) = V m c main_v2 y
  refine congrArg _ (funext fun a => Fin.ext ?_)
  match a with
  | ⟨0, _⟩ => show win0_4.index t (0 : Fin 2) * 125 + 1 * (y 0).val = (y 0).val; rw [e 0]; omega
  | ⟨1, _⟩ => show win0_4.index t (1 : Fin 2) * 128 + 1 * (y 1).val = (y 1).val; rw [e 1]; omega
theorem b1B_eq (c : Dev nD) (t : Fin cfg0.N) : b1B m c t = b1A m c := by
  obtain ⟨-, -, -, -, -, -, -, -, -, e, -⟩ := idx_facts t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; rw [e 0]; omega
  | ⟨1, _⟩ => show win0_5.index t (1 : Fin 2) * 128 + 1 * (y 1).val = (y 1).val; rw [e 1]; omega
theorem w2B_eq (c : Dev nD) (t : Fin cfg0.N) : w2B m c t = w2A m c := by
  obtain ⟨-, -, -, -, -, -, -, -, -, -, e, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; rw [e 0]; omega
  | ⟨1, _⟩ => show win0_6.index t (1 : Fin 2) * 128 + 1 * (y 1).val = (y 1).val; rw [e 1]; omega
theorem b2B_eq (c : Dev nD) (t : Fin cfg0.N) : b2B m c t = b2A m c := by
  obtain ⟨-, -, -, -, -, -, -, -, -, -, -, e, -⟩ := idx_facts t
  funext y
  show V m c main_v4 (((cfg0.win 7).blk t).view.emb y) = V m c main_v4 y
  refine congrArg _ (funext fun a => Fin.ext ?_)
  match a with
  | ⟨0, _⟩ => show win0_7.index t (0 : Fin 2) * 1 + 1 * (y 0).val = (y 0).val; rw [e 0]; omega
  | ⟨1, _⟩ => show win0_7.index t (1 : Fin 2) * 128 + 1 * (y 1).val = (y 1).val; rw [e 1]; omega
theorem w3B_eq (c : Dev nD) (t : Fin cfg0.N) : w3B m c t = w3A m c := by
  obtain ⟨-, -, -, -, -, -, -, -, -, -, -, -, e, -⟩ := idx_facts t
  funext y
  show V m c main_arg8 (((cfg0.win 8).blk t).view.emb y) = V m c main_arg8 y
  refine congrArg _ (funext fun a => Fin.ext ?_)
  match a with
  | ⟨0, _⟩ => show win0_8.index t (0 : Fin 2) * 128 + 1 * (y 0).val = (y 0).val; rw [e 0]; omega
  | ⟨1, _⟩ => show win0_8.index t (1 : Fin 2) * 64 + 1 * (y 1).val = (y 1).val; rw [e 1]; omega
theorem b3B_eq (c : Dev nD) (t : Fin cfg0.N) : b3B m c t = b3A m c := by
  obtain ⟨-, -, -, -, -, -, -, -, -, -, -, -, -, e⟩ := idx_facts t
  funext y
  show V m c main_v5 (((cfg0.win 9).blk t).view.emb y) = V m c main_v5 y
  refine congrArg _ (funext fun a => Fin.ext ?_)
  match a with
  | ⟨0, _⟩ => show win0_9.index t (0 : Fin 2) * 1 + 1 * (y 0).val = (y 0).val; rw [e 0]; omega
  | ⟨1, _⟩ => show win0_9.index t (1 : Fin 2) * 64 + 1 * (y 1).val = (y 1).val; rw [e 1]; omega

/-- Row p of point t's coordinate block is row 5000 t + p of the coordinates. -/
theorem posB_row (c : Dev nD) (t : Fin cfg0.N) (p : Fin 5000) (P : Fin 500000) (hP : P.val = t.val * 5000 + p.val)
    (k : Fin 3) : posB m c t (ix2 p k) = posA m c (ix2 P k) := by
  obtain ⟨e0, e1, -⟩ := idx_facts t
  show V m c main_arg0 (((cfg0.win 0).blk t).view.emb (ix2 p k)) = V m c main_arg0 (ix2 P k)
  refine congrArg _ (funext fun a => Fin.ext ?_)
  match a with
  | ⟨0, _⟩ => show win0_0.index t (0 : Fin 2) * 5000 + 1 * p.val = P.val; rw [e0]; omega
  | ⟨1, _⟩ => show win0_0.index t (1 : Fin 2) * 3 + 1 * k.val = k.val; rw [e1]; omega

/-- Word p of point t's word block is word 5000 t + p of the word column. -/
theorem zB_row (c : Dev nD) (t : Fin cfg0.N) (p : Fin 5000) (P : Fin 500000) (hP : P.val = t.val * 5000 + p.val) :
    zB m c t (ix2 p (0 : Fin 1)) = zA m c (ix2 P (0 : Fin 1)) := by
  obtain ⟨-, -, e0, e1, -⟩ := idx_facts t
  show V m c main_v0 (((cfg0.win 1).blk t).view.emb (ix2 p (0 : Fin 1))) = V m c main_v0 (ix2 P (0 : Fin 1))
  refine congrArg _ (funext fun a => Fin.ext ?_)
  match a with
  | ⟨0, _⟩ => show win0_1.index t (0 : Fin 2) * 5000 + 1 * p.val = P.val; rw [e0]; omega
  | ⟨1, _⟩ => show win0_1.index t (1 : Fin 2) * 1 + 1 * 0 = 0; rw [e1]

/-! ## What a point writes back, the cover, the array -/

/-- What point t writes back is block t of the node-output array. -/
theorem flushed_eq (c : Dev nD) (t : Fin cfg0.N) :
    (dats m 0 c).flushed 10 t = ((cfg0.win 10).blk t).view.read (Elt Ideal) (nodeOut m c) := by
  show (cfg0.win 10).cut (grid0.coords t) ((dats m 0 c).after 10 t) = _
  rw [after0_10]
  refine funext fun (j : S5000x64.Idx) => ?_
  show out0_10 (F := Ideal) (posB m c t) (zB m c t) (embB m c t) (wpB m c t) (wfB m c t) (b1B m c t) (w2B m c t)
      (b2B m c t) (w3B m c t) (b3B m c t) j = nodeOut m c (((cfg0.win 10).blk t).view.emb j)
  rw [out_block, embB_eq, wpB_eq, wfB_eq, b1B_eq, w2B_eq, b2B_eq, w3B_eq, b3B_eq]
  obtain ⟨p, q, rfl⟩ : ∃ (p : Fin 5000) (q : Fin 64), j = ix2 p q := ⟨j 0, j 1, eq_ix2 j⟩
  obtain ⟨-, -, -, -, e0, e1, -⟩ := idx_facts t
  have ht : t.val < 100 := t.isLt
  have hlt : t.val * 5000 + p.val < 500000 := by have := p.isLt; omega
  have hemb : ((cfg0.win 10).blk t).view.emb (ix2 p q) = ix2 (⟨t.val * 5000 + p.val, hlt⟩ : Fin 500000) q := by
    funext a; apply Fin.ext
    match a with
    | ⟨0, _⟩ => show win0_10.index t (0 : Fin 2) * 5000 + 1 * p.val = t.val * 5000 + p.val; rw [e0]; omega
    | ⟨1, _⟩ => show win0_10.index t (1 : Fin 2) * 64 + 1 * q.val = q.val; rw [e1]; omega
  rw [hemb]
  unfold nodeOut
  refine head_rows _ _ _ _ _ _ _ p ⟨t.val * 5000 + p.val, hlt⟩ (fun c' => ?_) q
  exact firstProduct_rows _ _ _ _ _ _ _ p ⟨t.val * 5000 + p.val, hlt⟩ (fun k => posB_row m c t p _ rfl k)
    (zB_row m c t p _ rfl) c'

/-- An index of the array is in point t's block iff each coordinate is in the block's range on its axis. -/
theorem mem_blk (t : Fin cfg0.N) (i : S500000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v6).slice (win0_10.rect t)).set ↔ _
  rw [View.set_slice_whole, Rect.mem_set_unit]
  exact Iff.rfl

/-- Row r lies in the block of point r / 5000. -/
theorem cover (i : S500000x64.Idx) :
    ∃ t : Fin cfg0.N, (cfg0.win 10).flush t = true ∧ i ∈ ((cfg0.win 10).blk t).view.set := by
  have hi0 : (i 0).val < 500000 := (i 0).isLt
  have hi1 : (i 1).val < 64 := (i 1).isLt
  have hN : cfg0.N = 100 := rfl
  let t : Fin cfg0.N := ⟨(i 0).val / 5000, by rw [hN]; omega⟩
  have htv : t.val = (i 0).val / 5000 := rfl
  obtain ⟨-, -, -, -, e0, e1, -⟩ := idx_facts t
  refine ⟨t, flush0_10 t, ?_⟩
  rw [mem_blk]
  intro a
  match a with
  | ⟨0, _⟩ =>
    show win0_10.index t (0 : Fin 2) * 5000 ≤ (i 0).val ∧ (i 0).val < win0_10.index t (0 : Fin 2) * 5000 + 5000
    rw [e0, htv]; omega
  | ⟨1, _⟩ =>
    show win0_10.index t (1 : Fin 2) * 64 ≤ (i 1).val ∧ (i 1).val < win0_10.index t (1 : Fin 2) * 64 + 64
    rw [e1]; omega

/-- The node-output array after the region. -/
theorem final (c : Dev nD) : (dats m 0 c).arrAt 10 cfg0.N = nodeOut m c :=
  (dats m 0 c).arrAt_eq_of_cover 10 (nodeOut m c) (fun t _ => flushed_eq m c t) cover

end Cert.KernelIdeal.ArrayValue

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.KernelRun.lean ====
/-
  The kernel program's run, with its result named as a function of the argument arrays.

  Before the region the program reshapes the word vector to a column, cuts the first weight matrix into its first
  three rows and its remaining 125, and reshapes the three bias vectors to one-row matrices. After the region it
  pools: a scatter-add of the node outputs by graph number, a scatter-add of ones by graph number for the counts,
  and the quotient by the count clamped below at one. With every word below 100 the node outputs are the network
  of the argument arrays, so the result is the pooled network.
-/
import proofs.«430825_j51307679318539_1_alg».proof.Proof.KernelArray
import proofs.«430825_j51307679318539_1_alg».proof.Proof.LibLayoutReads
import Idealize.ShloMosaic.Lib.StableHlo.Run
import Idealize.ShloMosaic.Lib.ValueLayout

set_option maxRecDepth 16384

noncomputable section

open scoped BigOperators

namespace Cert.KernelIdeal.RunValue

open Idealize.ShloMosaic Idealize.ShloMosaic.ValueIdx DenseRows Cert.Mlp Cert.KernelIdeal Cert.KernelIdeal.Gen
open Cert.KernelIdeal.ArrayValue Idealize.SL.Sem
open Idealize.ShloMosaic.Pipeline (Dat Cfg Window)

variable (m : (ℓ : Loc nD τ sig) → Buf (Elt Ideal) ℓ)

/-! ## The argument arrays at their literal types -/

abbrev pos0 (c : Dev nD) : Mat 500000 3 := m ((c.tc : Thread nD τ).loc main_arg0)
abbrev z0 (c : Dev nD) : IVec S500000 32 := m ((c.tc : Thread nD τ).loc main_arg1)
abbrev batch0 (c : Dev nD) : IVec S500000 32 := m ((c.tc : Thread nD τ).loc main_arg2)
abbrev emb0 (c : Dev nD) : Mat 100 125 := m ((c.tc : Thread nD τ).loc main_arg3)
abbrev w10 (c : Dev nD) : Mat 128 128 := m ((c.tc : Thread nD τ).loc main_arg4)
abbrev b10 (c : Dev nD) : Col 128 := m ((c.tc : Thread nD τ).loc main_arg5)
abbrev w20 (c : Dev nD) : Mat 128 128 := m ((c.tc : Thread nD τ).loc main_arg6)
abbrev b20 (c : Dev nD) : Col 128 := m ((c.tc : Thread nD τ).loc main_arg7)
abbrev w30 (c : Dev nD) : Mat 128 64 := m ((c.tc : Thread nD τ).loc main_arg8)
abbrev b30 (c : Dev nD) : Col 64 := m ((c.tc : Thread nD τ).loc main_arg9)

/-! ## The pooling after the region -/

/-- Sums of the node outputs per graph over the per-graph node counts clamped below at one. -/
def pool (x : Mat 500000 64) (batch : IVec S500000 32) : FVec Ideal S4096x64 .f32 :=
  Host.divf
    (Host.scatterAdd scatter_S4096x64_S500000x1_S500000x64_1_0_0_1
      (broadcastInDim S4096x64 ![] bcast_S_S4096x64 (constant (F := Ideal) S_ .f32 0x00000000#32))
      (broadcastInDim S500000x1 ![0] bcast_S500000_S500000x1_0 batch) x)
    (broadcastInDim S4096x64 ![0, 1] bcast_S4096x1_S4096x64_0_1
      (maximumf
        (Host.scatterAdd scatter_S4096x1_S500000x1_S500000x1_1_0_0_1
          (broadcastInDim S4096x1 ![] bcast_S_S4096x1 (constant (F := Ideal) S_ .f32 0x00000000#32))
          (broadcastInDim S500000x1 ![0] bcast_S500000_S500000x1_0 batch)
          (broadcastInDim S500000x1 ![] bcast_S_S500000x1 (constant (F := Ideal) S_ .f32 0x3F800000#32)))
        (broadcastInDim S4096x1 ![] bcast_S_S4096x1 (constant (F := Ideal) S_ .f32 0x3F800000#32))))

/-! ## The host lines before the region -/

theorem zA_eq (c : Dev nD) : zA m c = shapeCast S500000x1 (z0 m c) shapeCasts_S500000_S500000x1 := by
  show StableHlo.after hostOps0 (fun b => m (c, b)) (Proc.devRef .tc main_v0) = _
  after_results
  rfl
theorem wpA_eq (c : Dev nD) : wpA m c = extractStridedSlice S3x128 ![0, 0] (w10 m c) slices_S128x128_S3x128_0_0 := by
  show StableHlo.after hostOps0 (fun b => m (c, b)) (Proc.devRef .tc main_v1) = _
  after_results
theorem wfA_eq (c : Dev nD) : wfA m c = extractStridedSlice S125x128 ![3, 0] (w10 m c) slices_S128x128_S125x128_3_0 := by
  show StableHlo.after hostOps0 (fun b => m (c, b)) (Proc.devRef .tc main_v2) = _
  after_results
theorem b1A_eq (c : Dev nD) : b1A m c = asRow (b10 m c) := by
  refine Eq.trans ?_ (shapeCast_asRow (b10 m c) shapeCasts_S128_S1x128)
  show StableHlo.after hostOps0 (fun b => m (c, b)) (Proc.devRef .tc main_v3) = _
  after_results
  rfl
theorem b2A_eq (c : Dev nD) : b2A m c = asRow (b20 m c) := by
  refine Eq.trans ?_ (shapeCast_asRow (b20 m c) shapeCasts_S128_S1x128)
  show StableHlo.after hostOps0 (fun b => m (c, b)) (Proc.devRef .tc main_v4) = _
  after_results
  rfl
theorem b3A_eq (c : Dev nD) : b3A m c = asRow (b30 m c) := by
  refine Eq.trans ?_ (shapeCast_asRow (b30 m c) shapeCasts_S64_S1x64)
  show StableHlo.after hostOps0 (fun b => m (c, b)) (Proc.devRef .tc main_v5) = _
  after_results
  rfl

/-- With every word below 100, the node outputs after the region are the network of the argument arrays. -/
theorem nodeOut_eq (c : Dev nD) (hz : ∀ a : Fin 500000, (z0 m c (ix1 a)).toNat < 100) :
    nodeOut m c = net (pos0 m c) (fun a => rowOf (z0 m c (ix1 a))) (emb0 m c) (w10 m c) (asRow (b10 m c))
      (w20 m c) (asRow (b20 m c)) (w30 m c) (asRow (b30 m c)) := by
  have hzc : (fun a : Fin 500000 => zA m c (ix2 a (0 : Fin 1))) = fun a => z0 m c (ix1 a) := by
    funext a
    rw [zA_eq]
    exact Cert.Gcn.LayoutReads.shapeCast_a_a1_apply (z0 m c) shapeCasts_S500000_S500000x1 a 0
  have hp : ∀ (k : Fin 3) (h : Fin 128), wpA m c (ix2 k h) = w10 m c (ix2 (Fin.castAdd 125 k) h) := by
    intro k h
    rw [wpA_eq]
    exact slice2_axis0_apply 0 (w10 m c) slices_S128x128_S3x128_0_0 k h (Fin.castAdd 125 k) (by simp)
  have hf : ∀ (f : Fin 125) (h : Fin 128), wfA m c (ix2 f h) = w10 m c (ix2 (Fin.natAdd 3 f) h) := by
    intro f h
    rw [wfA_eq]
    exact slice2_axis0_apply 3 (w10 m c) slices_S128x128_S125x128_3_0 f h (Fin.natAdd 3 f) (by simp)
  unfold nodeOut net
  rw [hzc, firstProduct_eq (posA m c) _ (embA m c) (w10 m c) (wpA m c) (wfA m c) hp hf hz, b1A_eq, b2A_eq, b3A_eq,
    show posA m c = pos0 m c from V_main_arg0 m c, show embA m c = emb0 m c from V_main_arg3 m c,
    show w2A m c = w20 m c from V_main_arg6 m c, show w3A m c = w30 m c from V_main_arg8 m c]

/-! ## The host lines after the region -/

/-- The result buffer after the tail: the pooling of the node-output array by the graph numbers. -/
theorem result_eq (c : Dev nD) :
    Pipeline.afterTail₀ cfgs (dats m) 0 (V0 m) [hostOps1] c main_v17 = pool (nodeOut m c) (batch0 m c) := by
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.devRef .tc main_v6)
        = nodeOut m c from (Pipeline.withArrays_arr spec0 launch0.win.arr_inj c _ _ 10).trans (final m c),
    show Pipeline.withArrays (cfgs 0).spec c (V0 m c) (fun w => (dats m 0 c).arrAt w (cfgs 0).N) (Proc.devRef .tc main_arg2)
        = batch0 m c from (Pipeline.withArrays_of_ne _ c (V0 m c) _ main_arg2
          (by exact (by decide : ∀ w, Pipeline.arrRef spec0 w ≠ main_arg2))).trans (V_main_arg2 m c)]
  rfl

/-! ## The run -/

/-- Every weakly fair execution of the kernel program terminates with the result buffer at the pooled network of
    the argument arrays, and the argument arrays unchanged. -/
theorem run (ρ : Dev nD → PrngReg) (hz : ∀ (c : Dev nD) (a : Fin 500000), (z0 m c (ix1 a)).toNat < 100) :
    θ_run defs (onTc (τ := τ) (main (F := Ideal))) ⟨m, fun _ => 0, ρ⟩ (fun r => ∀ c : Dev nD,
      r.2.mem ((c.tc : Thread nD τ).loc main_v17)
        = pool (net (pos0 m c) (fun a => rowOf (z0 m c (ix1 a))) (emb0 m c) (w10 m c) (asRow (b10 m c))
            (w20 m c) (asRow (b20 m c)) (w30 m c) (asRow (b30 m c))) (batch0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(((h c).2 main_v17 (Pipeline.mem_restRefs_of main_v17 (by decide) (by decide))).trans (result_eq m c)).trans
        (by rw [nodeOut_eq m c (hz c)]),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩)
    (run_main m ρ)

end Cert.KernelIdeal.RunValue

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«430825_j51307679318539_1_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.RefValue.lean ====
/-
  The reference program's result as a function of its argument arrays.

  The reference wraps a negative node word by adding 100, gathers the table rows the words name (a gather clamps
  its start index into the table), concatenates the coordinates with the gathered rows, and applies three dense
  layers spelled on the host: a contraction, a bias vector broadcast to a row and then down the rows, a maximum
  with a broadcast zero. With every word below 100 nothing wraps and nothing clamps, so the concatenated matrix is
  the node features and the layers are the network; the pooling that follows is the kernel program's, line for line.
-/
import proofs.«430825_j51307679318539_1_alg».proof.Defs
import proofs.«430825_j51307679318539_1_alg».proof.Proof.Gen.ReferenceIdeal.Run
import proofs.«430825_j51307679318539_1_alg».proof.Proof.LibDenseForms
import proofs.«430825_j51307679318539_1_alg».proof.Proof.LibGatherClamp
import proofs.«430825_j51307679318539_1_alg».proof.Proof.LibLayoutReads
import proofs.«430825_j51307679318539_1_alg».proof.Proof.Mlp
import Idealize.ShloMosaic.Lib.Pipeline.Value
import Idealize.ShloMosaic.Lib.Affine

set_option maxRecDepth 16384

noncomputable section

open scoped BigOperators

namespace Cert.ReferenceIdeal.RefValue

open Idealize.ShloMosaic Idealize.ShloMosaic.ValueIdx DenseRows Cert.Mlp Cert.ReferenceIdeal Cert.ReferenceIdeal.Gen

/-! ## The printed contraction records are the plain ones -/

theorem dot_hid : dot_S500000x128_S128x128_S500000x128_1_0_0_1_n_n = DotDims.plain 500000 128 128 := rfl
theorem dot_out : dot_S500000x128_S128x64_S500000x64_1_0_0_1_n_n = DotDims.plain 500000 128 64 := rfl

/-! ## The index column -/

/-- A word below 100 is not negative, so the wrap leaves it alone. -/
theorem wrap_id (w : BitVec 32) (hw : w.toNat < 100) :
    Scalar.select (IntOp.cmpi .slt w 0#32) (IntOp.addi w 100#32) w = w := by
  have h0 : ¬ IntOp.cmpi .slt w 0#32 = 1#1 := by
    rw [IntOp.cmpi_slt, show (0#32 : BitVec 32).toInt = 0 by decide]
    have h := BitVec.toInt_eq_toNat_cond w
    split at h <;> omega
  exact if_neg h0

/-- Its signed value, as a natural number, clamped to the last table row, is the row it names. -/
theorem clamp_id (w : BitVec 32) (hw : w.toNat < 100) : min w.toInt.toNat (100 - 1) = (rowOf w).val := by
  have h := BitVec.toInt_eq_toNat_cond w
  show min w.toInt.toNat 99 = min w.toNat 99
  split at h <;> omega

/-- The wrapped words as a column, read at a node. -/
theorem index_column (z : IVec S500000 32) (a : Fin 500000) (hz : (z (ix1 a)).toNat < 100) :
    broadcastInDim S500000x1 ![0] bcast_S500000_S500000x1_0
      (select (cmpi .slt z (broadcastInDim S500000 ![] bcast_S_S500000 (constantI S_ 32 0#32)))
        (addi z (broadcastInDim S500000 ![] bcast_S_S500000 (constantI S_ 32 100#32))) z) (ix2 a (0 : Fin 1))
      = z (ix1 a) := by
  rw [Cert.Gcn.LayoutReads.broadcastInDim_a_a1_apply]
  exact wrap_id (z (ix1 a)) hz

/-! ## The node features -/

/-- The coordinates concatenated with the gathered table rows are the node features. -/
theorem features_eq (pos : Mat 500000 3) (z : IVec S500000 32) (emb : Mat 100 125)
    (hz : ∀ a : Fin 500000, (z (ix1 a)).toNat < 100) :
    concatenate S500000x128 1 [⟨S500000x3, pos⟩, ⟨S500000x125,
        Host.gather gather_S100x125_S500000x1_S500000x125_1_0_n_n_0_1_1125 emb
          (broadcastInDim S500000x1 ![0] bcast_S500000_S500000x1_0
            (select (cmpi .slt z (broadcastInDim S500000 ![] bcast_S_S500000 (constantI S_ 32 0#32)))
              (addi z (broadcastInDim S500000 ![] bcast_S_S500000 (constantI S_ 32 100#32))) z))⟩]
        concatenates_S500000x3_S500000x125_S500000x128_d1
      = cat pos (rows emb (fun a => rowOf (z (ix1 a)))) := by
  funext i
  obtain ⟨a, k, rfl⟩ : ∃ (a : Fin 500000) (k : Fin 128), i = ix2 a k := ⟨i 0, i 1, eq_ix2 i⟩
  by_cases hk : k.val < 3
  · rw [concatenate_pair_apply_left (t := S500000x128) (s₁ := S500000x3) (s₂ := S500000x125) (1 : Fin 2) _ _ _ (ix2 a k) rfl (ix2 a (⟨k.val, hk⟩ : Fin 3)) (fun b => by
      match b with
      | ⟨0, _⟩ => rfl
      | ⟨1, _⟩ => rfl)]
    show pos (ix2 a ⟨k.val, hk⟩) = if h : k.val < 3 then pos (ix2 a ⟨k.val, h⟩) else _
    rw [dif_pos hk]
  · have hk' : k.val - 3 < 125 := by have := k.isLt; omega
    rw [concatenate_pair_apply_right (t := S500000x128) (s₁ := S500000x3) (s₂ := S500000x125) (1 : Fin 2) _ _ _ (ix2 a k) rfl rfl (ix2 a (⟨k.val - 3, hk'⟩ : Fin 125)) (fun b hb => by
      match b with
      | ⟨0, _⟩ => rfl
      | ⟨1, _⟩ => exact absurd rfl hb) (by show k.val - 3 + 3 = k.val; omega)]
    rw [Cert.Gcn.GatherClamp.gather2_clamp_apply (by norm_num) _ rfl rfl rfl rfl rfl]
    have hR : cat pos (rows emb (fun a => rowOf (z (ix1 a)))) (ix2 a k)
        = emb (ix2 (rowOf (z (ix1 a))) (⟨k.val - 3, hk'⟩ : Fin 125)) := by
      show (if h : k.val < 3 then _ else rows emb (fun a => rowOf (z (ix1 a))) (ix2 a ⟨k.val - 3, _⟩)) = _
      rw [dif_neg hk]
      rfl
    rw [hR]
    refine congrArg (fun r => emb (ix2 r (⟨k.val - 3, hk'⟩ : Fin 125))) (Fin.ext ?_)
    show min (_ : BitVec 32).toInt.toNat (100 - 1) = (rowOf (z (ix1 a))).val
    rw [index_column z a (hz a)]
    exact clamp_id (z (ix1 a)) (hz a)

/-! ## The layers -/

/-- The reference's node outputs are the network of its argument arrays. -/
theorem node_eq (pos : Mat 500000 3) (z : IVec S500000 32) (emb : Mat 100 125) (W1 : Mat 128 128) (b1 : Col 128)
    (W2 : Mat 128 128) (b2 : Col 128) (W3 : Mat 128 64) (b3 : Col 64)
    (hz : ∀ a : Fin 500000, (z (ix1 a)).toNat < 100) :
    addf (Host.dotGeneral dot_S500000x128_S128x64_S500000x64_1_0_0_1_n_n none
      (maximumf (addf (Host.dotGeneral dot_S500000x128_S128x128_S500000x128_1_0_0_1_n_n none
        (maximumf (addf (Host.dotGeneral dot_S500000x128_S128x128_S500000x128_1_0_0_1_n_n none
          (concatenate S500000x128 1 [⟨S500000x3, pos⟩, ⟨S500000x125,
            Host.gather gather_S100x125_S500000x1_S500000x125_1_0_n_n_0_1_1125 emb
              (broadcastInDim S500000x1 ![0] bcast_S500000_S500000x1_0
                (select (cmpi .slt z (broadcastInDim S500000 ![] bcast_S_S500000 (constantI S_ 32 0#32)))
                  (addi z (broadcastInDim S500000 ![] bcast_S_S500000 (constantI S_ 32 100#32))) z))⟩]
            concatenates_S500000x3_S500000x125_S500000x128_d1) W1)
          (broadcastInDim S500000x128 ![0, 1] bcast_S1x128_S500000x128_0_1 (broadcastInDim S1x128 ![1] bcast_S128_S1x128_1 b1)))
          (broadcastInDim S500000x128 ![] bcast_S_S500000x128 (constant (F := Ideal) S_ .f32 0x00000000#32))) W2)
        (broadcastInDim S500000x128 ![0, 1] bcast_S1x128_S500000x128_0_1 (broadcastInDim S1x128 ![1] bcast_S128_S1x128_1 b2)))
        (broadcastInDim S500000x128 ![] bcast_S_S500000x128 (constant (F := Ideal) S_ .f32 0x00000000#32))) W3)
      (broadcastInDim S500000x64 ![0, 1] bcast_S1x64_S500000x64_0_1 (broadcastInDim S1x64 ![1] bcast_S64_S1x64_1 b3))
    = net pos (fun a => rowOf (z (ix1 a))) emb W1 (asRow b1) W2 (asRow b2) W3 (asRow b3) := by
  rw [features_eq pos z emb hz, dot_hid, dot_out, dotGeneral_plain_eq_mm, dotGeneral_plain_eq_mm, dotGeneral_plain_eq_mm,
    broadcastInDim_asRow, broadcastInDim_asRow, broadcastInDim_asRow, bias_host_form, relu_host_form, bias_host_form,
    relu_host_form, bias_host_form]
  rfl

end Cert.ReferenceIdeal.RefValue

end
-- ==== Proof.PreRange.lean ====
/-
  The range of the node words, read out of the precondition.

  The precondition's last conjunct is the conjunction, over all 500000 nodes, of "the word is at least 0 as a signed
  number" and "the word is below 100 as a signed number". A word with both properties has unsigned value below 100.
-/
import proofs.«430825_j51307679318539_1_alg».proof.Defs
import Idealize.ShloMosaic.Lib.ReduceAll
import Idealize.ShloMosaic.Lib.Affine
import Idealize.ShloMosaic.Lib.ValueIdx

noncomputable section

namespace Cert.PreRange

open Idealize.ShloMosaic Idealize.ShloMosaic.ValueIdx Cert.Pre_finite_inputs

instance : Subsingleton S_.Idx := ⟨fun a b => funext fun d => d.elim0⟩

/-- Signed at least 0 and signed below 100 is unsigned below 100. -/
theorem word_range (w : BitVec 32) (h0 : IntOp.cmpi .sge w 0#32 = 1#1) (h1 : IntOp.cmpi .slt w 100#32 = 1#1) :
    w.toNat < 100 := by
  rw [IntOp.cmpi_sge] at h0
  rw [IntOp.cmpi_slt] at h1
  rw [show (0#32 : BitVec 32).toInt = 0 by decide] at h0
  rw [show (100#32 : BitVec 32).toInt = 100 by decide] at h1
  have h := BitVec.toInt_eq_toNat_cond w
  split at h <;> omega

/-- Under the precondition every node word is below 100. -/
theorem range_of_pre [Facts] (a0 : FVec Ideal S500000x3 .f32) (a1 : IVec S500000 32) (a2 : IVec S500000 32)
    (a3 : FVec Ideal S100x125 .f32) (a4 : FVec Ideal S128x128 .f32) (a5 : FVec Ideal S128 .f32)
    (a6 : FVec Ideal S128x128 .f32) (a7 : FVec Ideal S128 .f32) (a8 : FVec Ideal S128x64 .f32) (a9 : FVec Ideal S64 .f32)
    (h : fn (F := Ideal) a0 a1 a2 a3 a4 a5 a6 a7 a8 a9 = fun _ => 1#1) (i : S500000.Idx) : (a1 i).toNat < 100 := by
  have e := congrFun h ix0
  unfold fn fn_part1 fn_part2 at e
  dsimp only at e
  have e2 := (IntOp.andi_eq_one.mp e).2
  have e3 := Host.reduce_andi_all _ _ _ _ ix0 e2 i
  have e4 := IntOp.andi_eq_one.mp e3
  exact word_range (a1 i) e4.1 e4.2

end Cert.PreRange

end
-- ==== Proof.lean ====
/-
  Node features (three coordinates and a looked-up table row) through a three-layer perceptron, then the mean over
  each graph's nodes: the tiled kernel program against the plain reference, over the extended reals.

  Both programs end at  pool (net pos r emb W1 b1 W2 b2 W3 b3) batch,  where r n is the table row node n's word
  names, net is the perceptron applied row by row, and pool sums the node outputs per graph and divides by the
  per-graph count clamped below at one.
  * The kernel program looks the table row up as a product with an indicator matrix and splits the first weight matrix
    into its first three rows and the other 125; regrouping the contraction over 128 = 3 + 125 positions and
    collapsing the indicator sum to its one surviving term gives the first layer of net. Its 100 grid points write
    100 bands of 5000 rows that tile the 500000 nodes, and every layer is row-local.
  * The reference gathers the table rows and concatenates; its gather clamps and its indexing wraps negative
    words, and neither does anything to a word in [0, 100).
  The words being in [0, 100) is the precondition's last conjunct; finiteness of the float inputs is never used,
  since only commutativity and associativity of addition and 0 * x = 0 enter.
-/
import proofs.«430825_j51307679318539_1_alg».proof.Defs
import proofs.«430825_j51307679318539_1_alg».proof.Proof.Gen.Kernel
import proofs.«430825_j51307679318539_1_alg».proof.Proof.Gen.Kernel.Skeleton
import proofs.«430825_j51307679318539_1_alg».proof.Proof.Gen.Kernel.Launch
import proofs.«430825_j51307679318539_1_alg».proof.Proof.Gen.Kernel.Points
import proofs.«430825_j51307679318539_1_alg».proof.Proof.Gen.Kernel.Frame
import proofs.«430825_j51307679318539_1_alg».proof.Proof.Gen.KernelIdeal
import proofs.«430825_j51307679318539_1_alg».proof.Proof.Gen.KernelIdeal.Skeleton
import proofs.«430825_j51307679318539_1_alg».proof.Proof.Gen.KernelIdeal.Launch
import proofs.«430825_j51307679318539_1_alg».proof.Proof.Gen.KernelIdeal.Points
import proofs.«430825_j51307679318539_1_alg».proof.Proof.Gen.KernelIdeal.Frame
import proofs.«430825_j51307679318539_1_alg».proof.Proof.Gen.ReferenceIdeal
import proofs.«430825_j51307679318539_1_alg».proof.Proof.Gen.Pre_finite_inputs
import Idealize.ShloMosaic.Adequacy
import Idealize.ShloMosaic.Init
import proofs.«430825_j51307679318539_1_alg».proof.Proof.KernelRun
import proofs.«430825_j51307679318539_1_alg».proof.Proof.RefValue
import proofs.«430825_j51307679318539_1_alg».proof.Proof.PreRange

noncomputable section

namespace Cert.Proof

open Idealize.ShloMosaic Idealize.SL.Sem Idealize.ShloMosaic.ValueIdx DenseRows Cert.Mlp

/-- The two programs' pooling lines are the same operations on the same shapes. -/
theorem pool_eq (x : Mat 500000 64) (batch : IVec Cert.ReferenceIdeal.S500000 32) :
    Host.divf
      (Host.scatterAdd Cert.ReferenceIdeal.scatter_S4096x64_S500000x1_S500000x64_1_0_0_1
        (broadcastInDim Cert.ReferenceIdeal.S4096x64 ![] Cert.ReferenceIdeal.Gen.bcast_S_S4096x64
          (constant (F := Ideal) Cert.ReferenceIdeal.S_ .f32 0x00000000#32))
        (broadcastInDim Cert.ReferenceIdeal.S500000x1 ![0] Cert.ReferenceIdeal.Gen.bcast_S500000_S500000x1_0 batch) x)
      (broadcastInDim Cert.ReferenceIdeal.S4096x64 ![0, 1] Cert.ReferenceIdeal.Gen.bcast_S4096x1_S4096x64_0_1
        (maximumf
          (Host.scatterAdd Cert.ReferenceIdeal.scatter_S4096x1_S500000x1_S500000x1_1_0_0_1
            (broadcastInDim Cert.ReferenceIdeal.S4096x1 ![] Cert.ReferenceIdeal.Gen.bcast_S_S4096x1
              (constant (F := Ideal) Cert.ReferenceIdeal.S_ .f32 0x00000000#32))
            (broadcastInDim Cert.ReferenceIdeal.S500000x1 ![0] Cert.ReferenceIdeal.Gen.bcast_S500000_S500000x1_0 batch)
            (broadcastInDim Cert.ReferenceIdeal.S500000x1 ![] Cert.ReferenceIdeal.Gen.bcast_S_S500000x1
              (constant (F := Ideal) Cert.ReferenceIdeal.S_ .f32 0x3F800000#32)))
          (broadcastInDim Cert.ReferenceIdeal.S4096x1 ![] Cert.ReferenceIdeal.Gen.bcast_S_S4096x1
            (constant (F := Ideal) Cert.ReferenceIdeal.S_ .f32 0x3F800000#32))))
      = Cert.KernelIdeal.RunValue.pool x batch := rfl

theorem claim : Cert.Claim := ⟨Cert.Kernel.Gen.facts, Cert.KernelIdeal.Gen.facts, Cert.ReferenceIdeal.Gen.facts, Cert.Pre_finite_inputs.Gen.facts, by
  haveI := Cert.Pre_finite_inputs.Gen.facts
  refine ⟨fun m ρ _ => Cert.Kernel.Gen.frame m ρ, fun m ρ _ => Cert.KernelIdeal.Gen.frame m ρ,
    fun m ρ _ => (θ_run Cert.ReferenceIdeal.defs _ _).mono (fun _ h c => (h c).2)
      (Cert.ReferenceIdeal.Value.run (F := Ideal) m ρ), trivial, ?_⟩
  intro m ρ m' ρ' hpre hagree
  have hz : ∀ (c : Dev Cert.KernelIdeal.nD) (a : Fin 500000),
      (Cert.KernelIdeal.RunValue.z0 m c (ix1 a)).toNat < 100 :=
    fun c a => Cert.PreRange.range_of_pre _ _ _ _ _ _ _ _ _ _ (hpre c) (ix1 a)
  refine ⟨_, Cert.KernelIdeal.RunValue.run m ρ hz, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  rw [Cert.ReferenceIdeal.RefValue.node_eq _ _ _ _ _ _ _ _ _ (hz c)]
  exact pool_eq _ _⟩

end Cert.Proof

end
